-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x36 : Shape := ⟨2, ![16384, 36]⟩
abbrev S36x128 : Shape := ⟨2, ![36, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x9 : Shape := ⟨2, ![64, 9]⟩
abbrev S9 : Shape := ⟨1, ![9]⟩
abbrev S64x1 : Shape := ⟨2, ![64, 1]⟩
abbrev S1 : Shape := ⟨1, ![1]⟩
abbrev S_ : Shape := ⟨0, ![]⟩

class Facts : Prop where
  bcast_S_S16384x36 : S_.BroadcastsInDim S16384x36 (![] : Fin 0 → Fin S16384x36.rank)
  reducesTo_S16384x36_S_d0_1 : S16384x36.ReducesTo [0, 1] S_
  h_S_ : 0 < S_.numel
  bcast_S_S36x128 : S_.BroadcastsInDim S36x128 (![] : Fin 0 → Fin S36x128.rank)
  reducesTo_S36x128_S_d0_1 : S36x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x9 : S_.BroadcastsInDim S64x9 (![] : Fin 0 → Fin S64x9.rank)
  reducesTo_S64x9_S_d0_1 : S64x9.ReducesTo [0, 1] S_
  bcast_S_S9 : S_.BroadcastsInDim S9 (![] : Fin 0 → Fin S9.rank)
  reducesTo_S9_S_d0 : S9.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S64x9 .f32) (main_arg8 : FVec F S9 .f32) (main_arg9 : FVec F S64x64 .f32) (main_arg10 : FVec F S64 .f32) (main_arg11 : FVec F S64x1 .f32) (main_arg12 : FVec F S1 .f32) (main_v33 : IVec S_ 1) : IVec S_ 1 :=
  let main_v34 : FVec F S64x9 .f32 := Host.absf main_arg7
  let main_cst_12 : FVec F S_ .f32 := constant S_ .f32 0x7F800000#32
  let main_v35 : FVec F S64x9 .f32 := broadcastInDim S64x9 ![] bcast_S_S64x9 main_cst_12
  let main_v36 : IVec S64x9 1 := cmpf .olt main_v34 main_v35
  let main_c_13 : IVec S_ 1 := constantI S_ 1 1#1
  let main_v37 : IVec S_ 1 := (fun x v => Host.reduce IntOp.andi x v reducesTo_S64x9_S_d0_1 h_S_) main_v36 main_c_13
  let main_v38 : IVec S_ 1 := andi main_v33 main_v37
  let main_v39 : FVec F S9 .f32 := Host.absf main_arg8
  let main_cst_14 : FVec F S_ .f32 := constant S_ .f32 0x7F800000#32
  let main_v40 : FVec F S9 .f32 := broadcastInDim S9 ![] bcast_S_S9 main_cst_14
  let main_v41 : IVec S9 1 := cmpf .olt main_v39 main_v40
  let main_c_15 : IVec S_ 1 := constantI S_ 1 1#1
  let main_v42 : IVec S_ 1 := (fun x v => Host.reduce IntOp.andi x v reducesTo_S9_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S64 .f32) (main_arg5 : FVec F S64x64 .f32) (main_arg6 : FVec F S64 .f32) (main_arg7 : FVec F S64x9 .f32) (main_arg8 : FVec F S9 .f32) (main_arg9 : FVec F S64x64 .f32) (main_arg10 : FVec F S64 .f32) (main_arg11 : FVec F S64x1 .f32) (main_arg12 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x36 .f32) (main_arg1 : FVec F S36x128 .f32) (main_arg2 : FVec F S128 .f32) (main_arg3 : FVec F S128x64 .f32) (main_arg4 : FVec F S64 .f32) (main_arg5 : FVec F S64x64 .f32) (main_arg6 : FVec F S64 .f32) (main_arg7 : FVec F S64x9 .f32) (main_arg8 : FVec F S9 .f32) (main_arg9 : FVec F S64x64 .f32) (main_arg10 : FVec F S64 .f32) (main_arg11 : FVec F S64x1 .f32) (main_arg12 : FVec F S1 .f32) : IVec S_ 1 :=
  let main_v0 : FVec F S16384x36 .f32 := Host.absf main_arg0
  let main_cst : FVec F S_ .f32 := constant S_ .f32 0x7F800000#32
  let main_v1 : FVec F S16384x36 .f32 := broadcastInDim S16384x36 ![] bcast_S_S16384x36 main_cst
  let main_v2 : IVec S16384x36 1 := cmpf .olt main_v0 main_v1
  let main_c : IVec S_ 1 := constantI S_ 1 1#1
  let main_v3 : IVec S_ 1 := (fun x v => Host.reduce IntOp.andi x v reducesTo_S16384x36_S_d0_1 h_S_) main_v2 main_c
  let main_v4 : FVec F S36x128 .f32 := Host.absf main_arg1
  let main_cst_0 : FVec F S_ .f32 := constant S_ .f32 0x7F800000#32
  let main_v5 : FVec F S36x128 .f32 := broadcastInDim S36x128 ![] bcast_S_S36x128 main_cst_0
  let main_v6 : IVec S36x128 1 := cmpf .olt main_v4 main_v5
  let main_c_1 : IVec S_ 1 := constantI S_ 1 1#1
  let main_v7 : IVec S_ 1 := (fun x v => Host.reduce IntOp.andi x v reducesTo_S36x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_v13 main_v16
-- ==== Kernel.lean ====
abbrev S16384x36 : Shape := ⟨2, ![16384, 36]⟩
abbrev S36x128 : Shape := ⟨2, ![36, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x9 : Shape := ⟨2, ![64, 9]⟩
abbrev S9 : Shape := ⟨1, ![9]⟩
abbrev S64x1 : Shape := ⟨2, ![64, 1]⟩
abbrev S1 : Shape := ⟨1, ![1]⟩
abbrev S1x128 : Shape := ⟨2, ![1, 128]⟩
abbrev S1x64 : Shape := ⟨2, ![1, 64]⟩
abbrev S1x9 : Shape := ⟨2, ![1, 9]⟩
abbrev S1x1 : Shape := ⟨2, ![1, 1]⟩
abbrev S36x16384 : Shape := ⟨2, ![36, 16384]⟩
abbrev S9x16384 : Shape := ⟨2, ![9, 16384]⟩
abbrev S1x16384 : Shape := ⟨2, ![1, 16384]⟩
abbrev S16384x128 : Shape := ⟨2, ![16384, 128]⟩
abbrev S16384x64 : Shape := ⟨2, ![16384, 64]⟩
abbrev S64x128 : Shape := ⟨2, ![64, 128]⟩
abbrev S64x10 : Shape := ⟨2, ![64, 10]⟩
abbrev S128x10 : Shape := ⟨2, ![128, 10]⟩
abbrev S10x16384 : Shape := ⟨2, ![10, 16384]⟩
abbrev S1x10 : Shape := ⟨2, ![1, 10]⟩
abbrev S10x1 : Shape := ⟨2, ![10, 1]⟩
abbrev S16384x9 : Shape := ⟨2, ![16384, 9]⟩
abbrev S16384x1 : Shape := ⟨2, ![16384, 1]⟩

abbrev nBuf : Space → Nat
  | .hbm => 24
  | .vmem => 15
  | .smem => 0
  | _ => 0

abbrev bufTy : (tb : Table) → Fin (tcTables nBuf tb) → BufTy
  | .hbm, ⟨0, _⟩ => ⟨S16384x36, .f32⟩
  | .hbm, ⟨1, _⟩ => ⟨S36x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x9, .f32⟩
  | .hbm, ⟨8, _⟩ => ⟨S9, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x128, .f32⟩
  | .hbm, ⟨14, _⟩ => ⟨S1x64, .f32⟩
  | .hbm, ⟨15, _⟩ => ⟨S1x64, .f32⟩
  | .hbm, ⟨16, _⟩ => ⟨S1x9, .f32⟩
  | .hbm, ⟨17, _⟩ => ⟨S1x64, .f32⟩
  | .hbm, ⟨18, _⟩ => ⟨S1x1, .f32⟩
  | .hbm, ⟨19, _⟩ => ⟨S36x16384, .f32⟩
  | .hbm, ⟨20, _⟩ => ⟨S9x16384, .f32⟩
  | .hbm, ⟨21, _⟩ => ⟨S1x16384, .f32⟩
  | .hbm, ⟨22, _⟩ => ⟨S16384x9, .f32⟩
  | .hbm, ⟨23, _⟩ => ⟨S16384x1, .f32⟩
  | .local _ .vmem, ⟨0, _⟩ => ⟨S36x16384, .f32⟩
  | .local _ .vmem, ⟨1, _⟩ => ⟨S36x128, .f32⟩
  | .local _ .vmem, ⟨2, _⟩ => ⟨S1x128, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S64x9, .f32⟩
  | .local _ .vmem, ⟨8, _⟩ => ⟨S1x9, .f32⟩
  | .local _ .vmem, ⟨9, _⟩ => ⟨S64x64, .f32⟩
  | .local _ .vmem, ⟨10, _⟩ => ⟨S1x64, .f32⟩
  | .local _ .vmem, ⟨11, _⟩ => ⟨S64x1, .f32⟩
  | .local _ .vmem, ⟨12, _⟩ => ⟨S1x1, .f32⟩
  | .local _ .vmem, ⟨13, _⟩ => ⟨S9x16384, .f32⟩
  | .local _ .vmem, ⟨14, _⟩ => ⟨S1x16384, .f32⟩
  | _, _ => ⟨S16384x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S36x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x9 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S9x16384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x16384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

class Facts₀ : Prop where
  bcast_S128_S1x128_1 : S128.BroadcastsInDim S1x128 (![1] : Fin 1 → Fin S1x128.rank)
  bcast_S64_S1x64_1 : S64.BroadcastsInDim S1x64 (![1] : Fin 1 → Fin S1x64.rank)
  bcast_S9_S1x9_1 : S9.BroadcastsInDim S1x9 (![1] : Fin 1 → Fin S1x9.rank)
  bcast_S1_S1x1_1 : S1.BroadcastsInDim S1x1 (![1] : Fin 1 → Fin S1x1.rank)
  transposes_S16384x36_S36x16384_1_0 : S16384x36.Transposes [1, 0] S36x16384
  inb_S36x16384_S36x16384_0_0 : ∀ a, (![0, 0] : Fin 2 → Nat) a + S36x16384.size a ≤ S36x16384.size a
  h_S36x16384 : 0 < S36x16384.numel
  shapeCasts_S36x16384_S36x16384 : S36x16384.ShapeCasts S36x16384
  bitsLt_bf16_f32 : FTy.bits .bf16 < FTy.bits .f32
  inb_S36x128_S36x128_0_0 : ∀ a, (![0, 0] : Fin 2 → Nat) a + S36x128.size a ≤ S36x128.size a
  h_S36x128 : 0 < S36x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  inb_S64x64_S64x64_0_0 : ∀ a, (![0, 0] : Fin 2 → Nat) a + S64x64.size a ≤ S64x64.size a
  h_S64x64 : 0 < S64x64.numel
  concatenates_S64x64_S64x64_S64x128_d1 : Shape.Concatenates [S64x64, S64x64] S64x128 1
  concatenates_S1x64_S1x64_S1x128_d1 : Shape.Concatenates [S1x64, S1x64] S1x128 1
  inb_S64x9_S64x9_0_0 : ∀ a, (![0, 0] : Fin 2 → Nat) a + S64x9.size a ≤ S64x9.size a
  h_S64x9 : 0 < S64x9.numel
  concatenates_S64x9_S64x1_S64x10_d1 : Shape.Concatenates [S64x9, S64x1] S64x10 1
  inb_S64x1_S64x1_0_0 : ∀ a, (![0, 0] : Fin 2 → Nat) a + S64x1.size a ≤ S64x1.size a
  h_S64x1 : 0 < S64x1.numel
  concatenates_S64x10_S64x10_S128x10_d0 : Shape.Concatenates [S64x10, S64x10] S128x10 0
  inb_S1x9_S1x9_0_0 : ∀ a, (![0, 0] : Fin 2 → Nat) a + S1x9.size a ≤ S1x9.size a
  h_S1x9 : 0 < S1x9.numel
  shapeCasts_S1x9_S1x9 : S1x9.ShapeCasts S1x9
  inb_S1x1_S1x1_0_0 : ∀ a, (![0, 0] : Fin 2 → Nat) a + S1x1.size a ≤ S1x1.size a
  h_S1x1 : 0 < S1x1.numel
  shapeCasts_S1x1_S1x1 : S1x1.ShapeCasts S1x1
  concatenates_S1x9_S1x1_S1x10_d1 : Shape.Concatenates [S1x9, S1x1] S1x10 1
  broadcasts_S10x1_S10x16384 : S10x1.Broadcasts S10x16384
  slices_S10x16384_o0_0_S9x16384 : S10x16384.Slices ![0, 0] S9x16384
  inb_S9x16384_S9x16384_0_0 : ∀ a, (![0, 0] : Fin 2 → Nat) a + S9x16384.size a ≤ S9x16384.size a
  h_S9x16384 : 0 < S9x16384.numel
  slices_S10x16384_o9_0_S1x16384 : S10x16384.Slices ![9, 0] S1x16384
  inb_S1x16384_S1x16384_0_0 : ∀ a, (![0, 0] : Fin 2 → Nat) a + S1x16384.size a ≤ S1x16384.size a
  h_S1x16384 : 0 < S1x16384.numel
  transposes_S9x16384_S16384x9_1_0 : S9x16384.Transposes [1, 0] S16384x9
  shapeCasts_S1x16384_S16384x1 : S1x16384.ShapeCasts S16384x1
  dot_S36x16384_S36x128_S16384x128_0_0_1_1_n_n_wf : DotDims.WF S36x16384 S36x128 S16384x128 [0] [0] [1] [1] [] []
  dot_S16384x128_S128x64_S16384x64_1_0_0_1_n_n_wf : DotDims.WF S16384x128 S128x64 S16384x64 [1] [0] [0] [1] [] []
  dot_S16384x64_S64x128_S16384x128_1_0_0_1_n_n_wf : DotDims.WF S16384x64 S64x128 S16384x128 [1] [0] [0] [1] [] []
  dot_S128x10_S16384x128_S10x16384_0_1_1_0_n_n_wf : DotDims.WF S128x10 S16384x128 S10x16384 [0] [1] [1] [0] [] []
  dot_S1x10_S1x1_S10x1_0_0_1_1_n_n_wf : DotDims.WF S1x10 S1x1 S10x1 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole

variable [Facts₀]

def dot_S36x16384_S36x128_S16384x128_0_0_1_1_n_n : DotDims S36x16384 S36x128 S16384x128 where
  lhsContracting := [0]
  rhsContracting := [0]
  lhsNonContracting := [1]
  rhsNonContracting := [1]
  lhsBatch := []
  rhsBatch := []
  wf := dot_S36x16384_S36x128_S16384x128_0_0_1_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S128x10_S16384x128_S10x16384_0_1_1_0_n_n : DotDims S128x10 S16384x128 S10x16384 where
  lhsContracting := [0]
  rhsContracting := [1]
  lhsNonContracting := [1]
  rhsNonContracting := [0]
  lhsBatch := []
  rhsBatch := []
  wf := dot_S128x10_S16384x128_S10x16384_0_1_1_0_n_n_wf
def dot_S1x10_S1x1_S10x1_0_0_1_1_n_n : DotDims S1x10 S1x1 S10x1 where
  lhsContracting := [0]
  rhsContracting := [0]
  lhsNonContracting := [1]
  rhsNonContracting := [1]
  lhsBatch := []
  rhsBatch := []
  wf := dot_S1x10_S1x1_S10x1_0_0_1_1_n_n_wf

abbrev win0_0 : Pipeline.Window sig grid0 :=
  Pipeline.Window.whole (Memref.whole main_v6) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_v2) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_v3) false false (stage0_8 0) (sem0_8 0) (Memref.isWhole_whole _) (hstage0_8 0)

abbrev win0_9 : Pipeline.Window sig grid0 :=
  Pipeline.Window.whole (Memref.whole main_arg9) false false (stage0_9 0) (sem0_9 0) (Memref.isWhole_whole _) (hstage0_9 0)

abbrev win0_10 : Pipeline.Window sig grid0 :=
  Pipeline.Window.whole (Memref.whole main_v4) false false (stage0_10 0) (sem0_10 0) (Memref.isWhole_whole _) (hstage0_10 0)

abbrev win0_11 : Pipeline.Window sig grid0 :=
  Pipeline.Window.whole (Memref.whole main_arg11) false false (stage0_11 0) (sem0_11 0) (Memref.isWhole_whole _) (hstage0_11 0)

abbrev win0_12 : Pipeline.Window sig grid0 :=
  Pipeline.Window.whole (Memref.whole main_v5) false false (stage0_12 0) (sem0_12 0) (Memref.isWhole_whole _) (hstage0_12 0)

abbrev win0_13 : Pipeline.Window sig grid0 :=
  Pipeline.Window.whole (Memref.whole main_v7_0) true false (stage0_13 0) (sem0_13 0) (Memref.isWhole_whole _) (hstage0_13 0)

abbrev win0_14 : Pipeline.Window sig grid0 :=
  Pipeline.Window.whole (Memref.whole main_v7_1) true false (stage0_14 0) (sem0_14 0) (Memref.isWhole_whole _) (hstage0_14 0)

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x36 : Shape := ⟨2, ![16384, 36]⟩
abbrev S36x128 : Shape := ⟨2, ![36, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x9 : Shape := ⟨2, ![64, 9]⟩
abbrev S9 : Shape := ⟨1, ![9]⟩
abbrev S64x1 : Shape := ⟨2, ![64, 1]⟩
abbrev S1 : Shape := ⟨1, ![1]⟩
abbrev S16384x128 : Shape := ⟨2, ![16384, 128]⟩
abbrev S1x128 : Shape := ⟨2, ![1, 128]⟩
abbrev S_ : Shape := ⟨0, ![]⟩
abbrev S16384x64 : Shape := ⟨2, ![16384, 64]⟩
abbrev S1x64 : Shape := ⟨2, ![1, 64]⟩
abbrev S16384x9 : Shape := ⟨2, ![16384, 9]⟩
abbrev S1x9 : Shape := ⟨2, ![1, 9]⟩
abbrev S16384x1 : Shape := ⟨2, ![16384, 1]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x36, .f32⟩
  | .hbm, ⟨1, _⟩ => ⟨S36x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x9, .f32⟩
  | .hbm, ⟨8, _⟩ => ⟨S9, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S16384x128, .f32⟩
  | .hbm, ⟨14, _⟩ => ⟨S1x128, .f32⟩
  | .hbm, ⟨15, _⟩ => ⟨S16384x128, .f32⟩
  | .hbm, ⟨16, _⟩ => ⟨S16384x128, .f32⟩
  | .hbm, ⟨17, _⟩ => ⟨S_, .f32⟩
  | .hbm, ⟨18, _⟩ => ⟨S16384x128, .f32⟩
  | .hbm, ⟨19, _⟩ => ⟨S16384x128, .f32⟩
  | .hbm, ⟨20, _⟩ => ⟨S16384x64, .f32⟩
  | .hbm, ⟨21, _⟩ => ⟨S1x64, .f32⟩
  | .hbm, ⟨22, _⟩ => ⟨S16384x64, .f32⟩
  | .hbm, ⟨23, _⟩ => ⟨S16384x64, .f32⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S_, .f32⟩
  | .hbm, ⟨32, _⟩ => ⟨S16384x64, .f32⟩
  | .hbm, ⟨33, _⟩ => ⟨S16384x64, .f32⟩
  | .hbm, ⟨34, _⟩ => ⟨S16384x9, .f32⟩
  | .hbm, ⟨35, _⟩ => ⟨S1x9, .f32⟩
  | .hbm, ⟨36, _⟩ => ⟨S16384x9, .f32⟩
  | .hbm, ⟨37, _⟩ => ⟨S16384x9, .f32⟩
  | .hbm, ⟨38, _⟩ => ⟨S16384x64, .f32⟩
  | .hbm, ⟨39, _⟩ => ⟨S1x64, .f32⟩
  | .hbm, ⟨40, _⟩ => ⟨S16384x64, .f32⟩
  | .hbm, ⟨41, _⟩ => ⟨S16384x64, .f32⟩
  | .hbm, ⟨42, _⟩ => ⟨S_, .f32⟩
  | .hbm, ⟨43, _⟩ => ⟨S16384x64, .f32⟩
  | .hbm, ⟨44, _⟩ => ⟨S16384x64, .f32⟩
  | .hbm, ⟨45, _⟩ => ⟨S16384x1, .f32⟩
  | .hbm, ⟨46, _⟩ => ⟨S1x1, .f32⟩
  | .hbm, ⟨47, _⟩ => ⟨S16384x1, .f32⟩
  | .hbm, ⟨48, _⟩ => ⟨S16384x1, .f32⟩
  | _, _ => ⟨S16384x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call3_cst : Ref sig .tc := ⟨.hbm, 42, rfl⟩
abbrev main_call3_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S9_S1x9_1 : S9.BroadcastsInDim S1x9 (![1] : Fin 1 → Fin S1x9.rank)
  bcast_S1x9_S16384x9_0_1 : S1x9.BroadcastsInDim S16384x9 (![0, 1] : Fin 2 → Fin S16384x9.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x36_S36x128_S16384x128_1_0_0_1_n_n_wf : DotDims.WF S16384x36 S36x128 S16384x128 [1] [0] [0] [1] [] []
  dot_S16384x128_S128x64_S16384x64_1_0_0_1_n_n_wf : DotDims.WF S16384x128 S128x64 S16384x64 [1] [0] [0] [1] [] []
  dot_S16384x64_S64x64_S16384x64_1_0_0_1_n_n_wf : DotDims.WF S16384x64 S64x64 S16384x64 [1] [0] [0] [1] [] []
  dot_S16384x64_S64x9_S16384x9_1_0_0_1_n_n_wf : DotDims.WF S16384x64 S64x9 S16384x9 [1] [0] [0] [1] [] []
  dot_S16384x64_S64x1_S16384x1_1_0_0_1_n_n_wf : DotDims.WF S16384x64 S64x1 S16384x1 [1] [0] [0] [1] [] []

variable [Facts₀]

def dot_S16384x36_S36x128_S16384x128_1_0_0_1_n_n : DotDims S16384x36 S36x128 S16384x128 where
  lhsContracting := [1]
  rhsContracting := [0]
  lhsNonContracting := [0]
  rhsNonContracting := [1]
  lhsBatch := []
  rhsBatch := []
  wf := dot_S16384x36_S36x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x9_S16384x9_1_0_0_1_n_n : DotDims S16384x64 S64x9 S16384x9 where
  lhsContracting := [1]
  rhsContracting := [0]
  lhsNonContracting := [0]
  rhsNonContracting := [1]
  lhsBatch := []
  rhsBatch := []
  wf := dot_S16384x64_S64x9_S16384x9_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibLayout.lean ====
import proofs.«170719_g49220325212179_cont_8to1c4_445_33_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.LibDense.lean ====
import proofs.«170719_g49220325212179_cont_8to1c4_445_33_alg».proof.Proof.LibDenseDefs
import proofs.«170719_g49220325212179_cont_8to1c4_445_33_alg».proof.Proof.LibContract
import proofs.«170719_g49220325212179_cont_8to1c4_445_33_alg».proof.Proof.LibLayout

/-!
# Dense layers on rows of extended reals, and the two spellings a program has for them

The dense layer `lin x w b = x · w + b` acts row by row: an entry of row `r` depends on row `r` of `x` only (`lin_rows`),
so the same definition at a block of rows and at the whole array is one function. The host's
`dot_general(x, w) + broadcast(b)` and a kernel's `matmul(bf16 x, bf16 w, 0) + broadcast(shape_cast b)` are both `lin x w b`
on the extended reals, where a change of float format is the identity.
-/

noncomputable section

namespace Cert.LibDense

open Idealize.ShloMosaic Idealize.ShloMosaic.ValueIdx

/-- An entry of row `r` of `x · w + b` is a function of row `r` of `x`, column `q` of `w` and `b[q]`. -/
theorem lin_rows {M M' K N : Nat} (x : Mat M K) (x' : Mat M' K) (w w' : Mat K N) (b b' : Row N) (r : Fin M) (r' : Fin M')
    (q : Fin N) (hx : ∀ k : Fin K, x (ix2 r k) = x' (ix2 r' k)) (hw : ∀ k : Fin K, w (ix2 k q) = w' (ix2 k q))
    (hb : b (ix1 q) = b' (ix1 q)) : lin x w b (ix2 r q) = lin x' w' b' (ix2 r' q) := by
  rw [lin_apply, lin_apply, hb]
  congr 1
  exact Finset.sum_congr rfl fun k _ => by rw [hx k, hw k]

/-- Row `r` of the join is row `r` of each part. -/
theorem cat_rows {M M' A B : Nat} (s : Mat M A) (d : Mat M B) (s' : Mat M' A) (d' : Mat M' B) (r : Fin M) (r' : Fin M')
    (hs : ∀ k : Fin A, s (ix2 r k) = s' (ix2 r' k)) (hd : ∀ k : Fin B, d (ix2 r k) = d' (ix2 r' k)) (k : Fin (A + B)) :
    cat s d (ix2 r k) = cat s' d' (ix2 r' k) := by
  by_cases h : k.val < A
  · have e : cat s d (ix2 r k) = s (ix2 r ⟨k.val, h⟩) := dif_pos h
    have e' : cat s' d' (ix2 r' k) = s' (ix2 r' ⟨k.val, h⟩) := dif_pos h
    rw [e, e']
    exact hs _
  · have e : cat s d (ix2 r k) = d (ix2 r ⟨k.val - A, by have := k.isLt; omega⟩) := dif_neg h
    have e' : cat s' d' (ix2 r' k) = d' (ix2 r' ⟨k.val - A, by have := k.isLt; omega⟩) := dif_neg h
    rw [e, e']
    exact hd _

/-! ## The printed layer is `lin` -/

/-- The host's `dot_general(x, w) + broadcast(b)` is `lin x w b`. -/
theorem hostLin_eq (M K N : Nat) (prec : Option ContractPrecision) (h₁ : (⟨1, ![N]⟩ : Shape).BroadcastsInDim ⟨2, ![1, N]⟩ ![1])
    (h₂ : (⟨2, ![1, N]⟩ : Shape).BroadcastsInDim ⟨2, ![M, N]⟩ ![0, 1])
    (x : FVec Ideal (⟨2, ![M, K]⟩ : Shape) .f32) (w : FVec Ideal (⟨2, ![K, N]⟩ : Shape) .f32) (b : FVec Ideal (⟨1, ![N]⟩ : Shape) .f32) :
    addf (Host.dotGeneral (DotDims.plain M K N) prec x w)
        (broadcastInDim ⟨2, ![M, N]⟩ ![0, 1] h₂ (broadcastInDim ⟨2, ![1, N]⟩ ![1] h₁ b))
      = lin x w b := by
  funext i
  obtain ⟨p, q, rfl⟩ : ∃ (p : Fin M) (q : Fin N), i = ix2 p q := ⟨i 0, i 1, eq_ix2 i⟩
  refine (addf_apply _ _ _).trans ?_
  rw [dotGeneral_plain_apply, hostBias_apply, lin_apply]

/-- A kernel's `matmul(bf16 x, bf16 w, 0) + broadcast(shape_cast b)` is `lin x w b`: at the extended reals the change of
    format is the identity. -/
theorem kernLin_eq (M K N : Nat) (prec : Option ContractPrecision) (hc : (⟨1, ![N]⟩ : Shape).ShapeCasts ⟨2, ![1, N]⟩)
    (hb : (⟨2, ![1, N]⟩ : Shape).Broadcasts ⟨2, ![M, N]⟩) (ht : FTy.bf16.bits < FTy.f32.bits)
    (x : FVec Ideal (⟨2, ![M, K]⟩ : Shape) .f32) (w : FVec Ideal (⟨2, ![K, N]⟩ : Shape) .f32) (b : FVec Ideal (⟨1, ![N]⟩ : Shape) .f32) :
    addf (matmul (DotDims.plain M K N) prec (truncf .bf16 x ht) (truncf .bf16 w ht)
          (constant (F := Ideal) (⟨2, ![M, N]⟩ : Shape) .f32 0x00000000#32))
        (broadcastTo ⟨2, ![M, N]⟩ (shapeCast ⟨2, ![1, N]⟩ b hc) hb)
      = lin x w b := by
  funext i
  obtain ⟨p, q, rfl⟩ : ∃ (p : Fin M) (q : Fin N), i = ix2 p q := ⟨i 0, i 1, eq_ix2 i⟩
  refine (addf_apply _ _ _).trans ?_
  rw [matmul_plain_zero_apply, kernBias_apply, lin_apply]
  rfl

end Cert.LibDense

end
-- ==== Proof.Spec.lean ====
import proofs.«170719_g49220325212179_cont_8to1c4_445_33_alg».proof.Proof.LibDenseDefs

/-!
# The network both programs compute, on rows of extended reals

A batch of 16384 states of 36 features goes through an encoder of two dense layers with `relu`
(`36 → 128 → 64`), and the encoded rows through two heads of the same shape: a dense layer `64 → 64` with `relu`, then a
dense layer `64 → N` with no activation. The actor head has `N = 9` (the logits), the critic head `N = 1` (the state value).
-/

noncomputable section

namespace Cert.Spec

open Idealize.ShloMosaic Cert.LibDense

/-- The encoder: `relu(relu(x · W1 + b1) · W2 + b2)`. -/
def enc (x : Mat 16384 36) (w1 : Mat 36 128) (b1 : Row 128) (w2 : Mat 128 64) (b2 : Row 64) : Mat 16384 64 :=
  reluM (lin (reluM (lin x w1 b1)) w2 b2)

/-- A head on the encoded rows: `relu(e · Wh + bh) · Wo + bo`. -/
def head {N : Nat} (e : Mat 16384 64) (wh : Mat 64 64) (bh : Row 64) (wo : Mat 64 N) (bo : Row N) : Mat 16384 N :=
  lin (reluM (lin e wh bh)) wo bo

end Cert.Spec

end
-- ==== Proof.RefIsSpec.lean ====
import proofs.«170719_g49220325212179_cont_8to1c4_445_33_alg».proof.Proof.Gen.ReferenceIdeal
import proofs.«170719_g49220325212179_cont_8to1c4_445_33_alg».proof.Proof.LibDense
import proofs.«170719_g49220325212179_cont_8to1c4_445_33_alg».proof.Proof.Spec

/-!
# The reference computes the network

The reference's two result terms are compositions of `dot_general`, the bias broadcast `[N] → [1, N] → [16384, N]`, the sum
and `maximum` against the zero splat: each `dot_general + bias` is a dense layer and each `maximum` a `relu`, so the terms
are the actor head and the critic head on the encoder's rows.
-/

noncomputable section

namespace Cert.RefIsSpec

open Cert.ReferenceIdeal Cert.ReferenceIdeal.Gen Idealize.ShloMosaic Cert.LibDense Cert.Spec

/-- The printed contraction records of the reference are the plain contraction `[M, K] × [K, N]`. -/
theorem dot1 : dot_S16384x36_S36x128_S16384x128_1_0_0_1_n_n = DotDims.plain 16384 36 128 := rfl
theorem dot2 : dot_S16384x128_S128x64_S16384x64_1_0_0_1_n_n = DotDims.plain 16384 128 64 := rfl
theorem dot3 : dot_S16384x64_S64x64_S16384x64_1_0_0_1_n_n = DotDims.plain 16384 64 64 := rfl
theorem dot4 : dot_S16384x64_S64x9_S16384x9_1_0_0_1_n_n = DotDims.plain 16384 64 9 := rfl
theorem dot5 : dot_S16384x64_S64x1_S16384x1_1_0_0_1_n_n = DotDims.plain 16384 64 1 := rfl

/-- The reference's encoder term is `enc`. -/
theorem ref_enc (x : FVec Ideal S16384x36 .f32) (w1 : FVec Ideal S36x128 .f32) (b1 : FVec Ideal S128 .f32)
    (w2 : FVec Ideal S128x64 .f32) (b2 : FVec Ideal S64 .f32) :
    maximumf (addf (Host.dotGeneral dot_S16384x128_S128x64_S16384x64_1_0_0_1_n_n none (maximumf (addf (Host.dotGeneral dot_S16384x36_S36x128_S16384x128_1_0_0_1_n_n none x w1) (broadcastInDim S16384x128 ![0, 1] bcast_S1x128_S16384x128_0_1 (broadcastInDim S1x128 ![1] bcast_S128_S1x128_1 b1))) (broadcastInDim S16384x128 ![] bcast_S_S16384x128 (constant (F := Ideal) S_ .f32 0x00000000#32))) w2) (broadcastInDim S16384x64 ![0, 1] bcast_S1x64_S16384x64_0_1 (broadcastInDim S1x64 ![1] bcast_S64_S1x64_1 b2))) (broadcastInDim S16384x64 ![] bcast_S_S16384x64 (constant (F := Ideal) S_ .f32 0x00000000#32))
      = enc x w1 b1 w2 b2 := by
  rw [dot1, dot2, hostLin_eq, hostRelu_eq, hostLin_eq, hostRelu_eq]
  rfl

/-- The reference's actor head on encoded rows `e` is `head`. -/
theorem ref_actor (e : FVec Ideal S16384x64 .f32) (wh : FVec Ideal S64x64 .f32) (bh : FVec Ideal S64 .f32)
    (wo : FVec Ideal S64x9 .f32) (bo : FVec Ideal S9 .f32) :
    addf (Host.dotGeneral dot_S16384x64_S64x9_S16384x9_1_0_0_1_n_n none (maximumf (addf (Host.dotGeneral dot_S16384x64_S64x64_S16384x64_1_0_0_1_n_n none e wh) (broadcastInDim S16384x64 ![0, 1] bcast_S1x64_S16384x64_0_1 (broadcastInDim S1x64 ![1] bcast_S64_S1x64_1 bh))) (broadcastInDim S16384x64 ![] bcast_S_S16384x64 (constant (F := Ideal) S_ .f32 0x00000000#32))) wo) (broadcastInDim S16384x9 ![0, 1] bcast_S1x9_S16384x9_0_1 (broadcastInDim S1x9 ![1] bcast_S9_S1x9_1 bo))
      = head e wh bh wo bo := by
  rw [dot3, dot4, hostLin_eq, hostRelu_eq, hostLin_eq]
  rfl

/-- The reference's critic head on encoded rows `e` is `head`. -/
theorem ref_critic (e : FVec Ideal S16384x64 .f32) (wh : FVec Ideal S64x64 .f32) (bh : FVec Ideal S64 .f32)
    (wo : FVec Ideal S64x1 .f32) (bo : FVec Ideal S1 .f32) :
    addf (Host.dotGeneral dot_S16384x64_S64x1_S16384x1_1_0_0_1_n_n none (maximumf (addf (Host.dotGeneral dot_S16384x64_S64x64_S16384x64_1_0_0_1_n_n none e wh) (broadcastInDim S16384x64 ![0, 1] bcast_S1x64_S16384x64_0_1 (broadcastInDim S1x64 ![1] bcast_S64_S1x64_1 bh))) (broadcastInDim S16384x64 ![] bcast_S_S16384x64 (constant (F := Ideal) S_ .f32 0x00000000#32))) wo) (broadcastInDim S16384x1 ![0, 1] bcast_S1x1_S16384x1_0_1 (broadcastInDim S1x1 ![1] bcast_S1_S1x1_1 bo))
      = head e wh bh wo bo := by
  rw [dot3, dot5, hostLin_eq, hostRelu_eq, hostLin_eq]
  rfl

end Cert.RefIsSpec

end
-- ==== Proof.LibContractT.lean ====
import Idealize.ShloMosaic.PureOps.Ideal.Laws
import Idealize.ShloMosaic.Lib.ValueIdx

/-!
# Contractions whose left operand is contracted on its FIRST axis, read at an entry, on the extended reals

Two rank-2 contractions with one contracted axis and no batch axes:

* `lhsT M K N`: `[K, M] × [K, N] → [M, N]`, both operands contracted on axis 0: entry `(p, q)` is `∑ k, a[k, p] · b[k, q]`
  (the product `aᵀ · b`);
* `bothT M K N`: `[K, M] × [N, K] → [M, N]`, the left operand contracted on axis 0 and the right one on axis 1: entry
  `(p, q)` is `∑ k, a[k, p] · b[q, k]` (the product `aᵀ · bᵀ = (b · a)ᵀ`).

Each has the fields of the printed records `…_0_0_1_1_n_n` and `…_0_1_1_0_n_n` of rank-2 operands. A kernel's `tpu.matmul`
into the zero splat and the host's `dot_general` over them are those sums.
-/

noncomputable section

namespace Cert.LibContractT

open Idealize.ShloMosaic Idealize.ShloMosaic.ValueIdx

/-- `<[0], [0], [1], [1], …, [], []>`: `K×M` by `K×N`, both contracted on their first axis. -/
def lhsT (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- `<[0], [1], [1], [0], …, [], []>`: `K×M` by `N×K`, the left operand contracted on its first axis and the right one on
    its last. -/
def bothT (M K N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

/-! ## `lhsT`: the operand indices, axis by axis -/

/-- The left operand's row is the contraction index's coordinate. -/
theorem lhsT_lhs_0 (M K N : Nat) (j : (⟨2, ![M, N]⟩ : Shape).Idx) (c : (lhsT M K N).contr.Idx) :
    ((lhsT M K N).lhsIdx j c 0).val = (c ⟨0, Nat.one_pos⟩).val :=
  (lhsT M K N).lhsIdx_val_of_single rfl j c

/-- The left operand's column is the result's row. -/
theorem lhsT_lhs_1 (M K N : Nat) (j : (⟨2, ![M, N]⟩ : Shape).Idx) (c : (lhsT M K N).contr.Idx) :
    ((lhsT M K N).lhsIdx j c 1).val = (j 0).val := by
  unfold DotDims.lhsIdx
  rw [dif_neg (show ¬(1 : Fin (⟨2, ![K, M]⟩ : Shape).rank) ∈ (lhsT M K N).lhsBatch from List.not_mem_nil),
    dif_pos (show (1 : Fin (⟨2, ![K, M]⟩ : Shape).rank) ∈ (lhsT M K N).lhsNonContracting from List.mem_singleton.mpr rfl)]
  rfl

/-- The right operand's row is the contraction index's coordinate. -/
theorem lhsT_rhs_0 (M K N : Nat) (j : (⟨2, ![M, N]⟩ : Shape).Idx) (c : (lhsT M K N).contr.Idx) :
    ((lhsT M K N).rhsIdx j c 0).val = (c ⟨0, Nat.one_pos⟩).val :=
  (lhsT M K N).rhsIdx_val_of_single rfl j c

/-- The right operand's column is the result's column. -/
theorem lhsT_rhs_1 (M K N : Nat) (j : (⟨2, ![M, N]⟩ : Shape).Idx) (c : (lhsT M K N).contr.Idx) :
    ((lhsT M K N).rhsIdx j c 1).val = (j 1).val := by
  unfold DotDims.rhsIdx
  rw [dif_neg (show ¬(1 : Fin (⟨2, ![K, N]⟩ : Shape).rank) ∈ (lhsT M K N).rhsBatch from List.not_mem_nil),
    dif_pos (show (1 : Fin (⟨2, ![K, N]⟩ : Shape).rank) ∈ (lhsT M K N).rhsNonContracting from List.mem_singleton.mpr rfl)]
  rfl

/-- The sum over the one-axis contraction index, re-indexed by its coordinate `k : Fin K`: `∑ k, a[k, p] · b[k, q]`. -/
theorem lhsT_sum (M K N : Nat) {φ₁ φ₂ : FTy} (a : FVec Ideal (⟨2, ![K, M]⟩ : Shape) φ₁)
    (b : FVec Ideal (⟨2, ![K, N]⟩ : Shape) φ₂) (p : Fin M) (q : Fin N) :
    (∑ c : (lhsT M K N).contr.Idx,
        a ((lhsT M K N).lhsIdx (ix2 p q) c) * b ((lhsT M K N).rhsIdx (ix2 p q) c))
      = ∑ k : Fin K, a (ix2 k p) * b (ix2 k q) := by
  rw [← Equiv.sum_comp (ValueIdx.contrEquiv1 (lhsT M K N) K rfl rfl).symm]
  refine Finset.sum_congr rfl fun k _ => ?_
  have hk := ValueIdx.contrEquiv1_symm_val (lhsT M K N) K rfl rfl k
  have el : (lhsT M K N).lhsIdx (ix2 p q) ((ValueIdx.contrEquiv1 (lhsT M K N) K rfl rfl).symm k)
      = ix2 k p := funext fun x => Fin.ext (by
    match x with
    | ⟨0, _⟩ => exact (lhsT_lhs_0 M K N _ _).trans hk
    | ⟨1, _⟩ => exact lhsT_lhs_1 M K N _ _)
  have er : (lhsT M K N).rhsIdx (ix2 p q) ((ValueIdx.contrEquiv1 (lhsT M K N) K rfl rfl).symm k)
      = ix2 k q := funext fun x => Fin.ext (by
    match x with
    | ⟨0, _⟩ => exact (lhsT_rhs_0 M K N _ _).trans hk
    | ⟨1, _⟩ => exact lhsT_rhs_1 M K N _ _)
  rw [el, er]

/-- A kernel's `tpu.matmul` over `lhsT` into the zero splat, at entry `(p, q)`: `∑ k, a[k, p] · b[k, q]`. -/
theorem matmul_lhsT_zero_apply (M K N : Nat) {φ₁ φ₂ : FTy} (prec : Option ContractPrecision)
    (a : FVec Ideal (⟨2, ![K, M]⟩ : Shape) φ₁) (b : FVec Ideal (⟨2, ![K, N]⟩ : Shape) φ₂) (p : Fin M) (q : Fin N) :
    matmul (lhsT M K N) prec a b (constant (F := Ideal) (⟨2, ![M, N]⟩ : Shape) .f32 0x00000000#32) (ix2 p q)
      = ∑ k : Fin K, a (ix2 k p) * b (ix2 k q) := by
  simp only [matmul]
  rw [Ideal.matmul_constant_zero_apply]
  exact lhsT_sum M K N a b p q

/-- The host's `dot_general` over `lhsT`, at entry `(p, q)`: the same sum. -/
theorem dotGeneral_lhsT_apply (M K N : Nat) {φ₁ φ₂ : FTy} (prec : Option ContractPrecision)
    (a : FVec Ideal (⟨2, ![K, M]⟩ : Shape) φ₁) (b : FVec Ideal (⟨2, ![K, N]⟩ : Shape) φ₂) (p : Fin M) (q : Fin N) :
    Host.dotGeneral (lhsT M K N) prec a b (ix2 p q) = ∑ k : Fin K, a (ix2 k p) * b (ix2 k q) := by
  simp only [Host.dotGeneral]
  rw [Ideal.dotGeneral_apply]
  exact lhsT_sum M K N a b p q

/-! ## `bothT`: the operand indices, axis by axis -/

/-- The left operand's row is the contraction index's coordinate. -/
theorem bothT_lhs_0 (M K N : Nat) (j : (⟨2, ![M, N]⟩ : Shape).Idx) (c : (bothT M K N).contr.Idx) :
    ((bothT M K N).lhsIdx j c 0).val = (c ⟨0, Nat.one_pos⟩).val :=
  (bothT M K N).lhsIdx_val_of_single rfl j c

/-- The left operand's column is the result's row. -/
theorem bothT_lhs_1 (M K N : Nat) (j : (⟨2, ![M, N]⟩ : Shape).Idx) (c : (bothT M K N).contr.Idx) :
    ((bothT M K N).lhsIdx j c 1).val = (j 0).val := by
  unfold DotDims.lhsIdx
  rw [dif_neg (show ¬(1 : Fin (⟨2, ![K, M]⟩ : Shape).rank) ∈ (bothT M K N).lhsBatch from List.not_mem_nil),
    dif_pos (show (1 : Fin (⟨2, ![K, M]⟩ : Shape).rank) ∈ (bothT M K N).lhsNonContracting from List.mem_singleton.mpr rfl)]
  rfl

/-- The right operand's row is the result's column. -/
theorem bothT_rhs_0 (M K N : Nat) (j : (⟨2, ![M, N]⟩ : Shape).Idx) (c : (bothT M K N).contr.Idx) :
    ((bothT M K N).rhsIdx j c 0).val = (j 1).val := by
  unfold DotDims.rhsIdx
  rw [dif_neg (show ¬(0 : Fin (⟨2, ![N, K]⟩ : Shape).rank) ∈ (bothT M K N).rhsBatch from List.not_mem_nil),
    dif_pos (show (0 : Fin (⟨2, ![N, K]⟩ : Shape).rank) ∈ (bothT M K N).rhsNonContracting from List.mem_singleton.mpr rfl)]
  rfl

/-- The right operand's column is the contraction index's coordinate. -/
theorem bothT_rhs_1 (M K N : Nat) (j : (⟨2, ![M, N]⟩ : Shape).Idx) (c : (bothT M K N).contr.Idx) :
    ((bothT M K N).rhsIdx j c 1).val = (c ⟨0, Nat.one_pos⟩).val :=
  (bothT M K N).rhsIdx_val_of_single rfl j c

/-- The sum over the one-axis contraction index, re-indexed by its coordinate `k : Fin K`: `∑ k, a[k, p] · b[q, k]`. -/
theorem bothT_sum (M K N : Nat) {φ₁ φ₂ : FTy} (a : FVec Ideal (⟨2, ![K, M]⟩ : Shape) φ₁)
    (b : FVec Ideal (⟨2, ![N, K]⟩ : Shape) φ₂) (p : Fin M) (q : Fin N) :
    (∑ c : (bothT M K N).contr.Idx,
        a ((bothT M K N).lhsIdx (ix2 p q) c) * b ((bothT M K N).rhsIdx (ix2 p q) c))
      = ∑ k : Fin K, a (ix2 k p) * b (ix2 q k) := by
  rw [← Equiv.sum_comp (ValueIdx.contrEquiv1 (bothT M K N) K rfl rfl).symm]
  refine Finset.sum_congr rfl fun k _ => ?_
  have hk := ValueIdx.contrEquiv1_symm_val (bothT M K N) K rfl rfl k
  have el : (bothT M K N).lhsIdx (ix2 p q) ((ValueIdx.contrEquiv1 (bothT M K N) K rfl rfl).symm k)
      = ix2 k p := funext fun x => Fin.ext (by
    match x with
    | ⟨0, _⟩ => exact (bothT_lhs_0 M K N _ _).trans hk
    | ⟨1, _⟩ => exact bothT_lhs_1 M K N _ _)
  have er : (bothT M K N).rhsIdx (ix2 p q) ((ValueIdx.contrEquiv1 (bothT M K N) K rfl rfl).symm k)
      = ix2 q k := funext fun x => Fin.ext (by
    match x with
    | ⟨0, _⟩ => exact bothT_rhs_0 M K N _ _
    | ⟨1, _⟩ => exact (bothT_rhs_1 M K N _ _).trans hk)
  rw [el, er]

/-- A kernel's `tpu.matmul` over `bothT` into the zero splat, at entry `(p, q)`: `∑ k, a[k, p] · b[q, k]`. -/
theorem matmul_bothT_zero_apply (M K N : Nat) {φ₁ φ₂ : FTy} (prec : Option ContractPrecision)
    (a : FVec Ideal (⟨2, ![K, M]⟩ : Shape) φ₁) (b : FVec Ideal (⟨2, ![N, K]⟩ : Shape) φ₂) (p : Fin M) (q : Fin N) :
    matmul (bothT M K N) prec a b (constant (F := Ideal) (⟨2, ![M, N]⟩ : Shape) .f32 0x00000000#32) (ix2 p q)
      = ∑ k : Fin K, a (ix2 k p) * b (ix2 q k) := by
  simp only [matmul]
  rw [Ideal.matmul_constant_zero_apply]
  exact bothT_sum M K N a b p q

end Cert.LibContractT

end
-- ==== Proof.LibDenseT.lean ====
import proofs.«170719_g49220325212179_cont_8to1c4_445_33_alg».proof.Proof.LibDense
import proofs.«170719_g49220325212179_cont_8to1c4_445_33_alg».proof.Proof.LibContractT
import Idealize.ShloMosaic.Lib.IdealHost

/-!
# Dense layers as a fused kernel spells them: a transposed input, a bias row, merged heads

* `tr`, `rowOf`: an array transposed, and the one row of a `[1, N]` array as a vector;
* a bias given as a row `[1, N]` broadcast down the rows, and a column `[M, 1]` broadcast along the columns, read at an entry;
* `x · w + b` when the kernel holds `xᵀ` (a contraction of both operands' first axes) or `x`, the bias a row;
* `vcat`, the join along the rows, beside `cat`; `lin` and `relu` commute with the column join of the weights;
* `bdiag u v`, the block-diagonal array `[[u, 0], [0, v]]`: a sum of its column `j` against a joined row `[a | c]` is the sum
  of `u`'s column against `a` when `j` is one of `u`'s columns, and of `v`'s column against `c` otherwise. This is how two
  heads run as one product.
-/

noncomputable section

namespace Cert.LibDense

open Idealize.ShloMosaic Idealize.ShloMosaic.ValueIdx

/-- The one row of a `[1, N]` array, as a vector. -/
def rowOf {N : Nat} (br : Mat 1 N) : Row N := fun i => br (ix2 (0 : Fin 1) (i 0))

/-- An array transposed. -/
def tr {A B : Nat} (x : Mat A B) : Mat B A := fun i => x (ix2 (i 1) (i 0))

/-- Two arrays one above the other: rows `0 … A-1` are `s`'s, rows `A … A+B-1` are `d`'s. -/
def vcat {A B N : Nat} (s : Mat A N) (d : Mat B N) : Mat (A + B) N :=
  fun i => if h : (i 0).val < A then s (ix2 ⟨(i 0).val, h⟩ (i 1))
    else d (ix2 ⟨(i 0).val - A, by have := (i 0).isLt; change (i 0).val < A + B at this; omega⟩ (i 1))

/-- The array of zeros. -/
def zeros (A B : Nat) : Mat A B := fun _ => 0

/-- The block-diagonal array `[[u, 0], [0, v]]`. -/
def bdiag {A B P Q : Nat} (u : Mat A P) (v : Mat B Q) : Mat (A + B) (P + Q) :=
  vcat (cat u (zeros A Q)) (cat (zeros B P) v)

/-! ## The joins read at an entry -/

theorem cat_left {M A B : Nat} (s : Mat M A) (d : Mat M B) (r : Fin M) (k : Fin (A + B)) (h : k.val < A) :
    cat s d (ix2 r k) = s (ix2 r ⟨k.val, h⟩) := dif_pos h

theorem cat_right {M A B : Nat} (s : Mat M A) (d : Mat M B) (r : Fin M) (k : Fin (A + B)) (h : ¬ k.val < A) :
    cat s d (ix2 r k) = d (ix2 r ⟨k.val - A, by have := k.isLt; omega⟩) := dif_neg h

theorem vcat_left {A B N : Nat} (s : Mat A N) (d : Mat B N) (k : Fin (A + B)) (q : Fin N) (h : k.val < A) :
    vcat s d (ix2 k q) = s (ix2 ⟨k.val, h⟩ q) := dif_pos h

theorem vcat_right {A B N : Nat} (s : Mat A N) (d : Mat B N) (k : Fin (A + B)) (q : Fin N) (h : ¬ k.val < A) :
    vcat s d (ix2 k q) = d (ix2 ⟨k.val - A, by have := k.isLt; omega⟩ q) := dif_neg h

/-- `concatenate` of two arrays along the rows is `vcat`. -/
theorem vconcat_eq (A B N : Nat) (h : Shape.Concatenates [(⟨2, ![A, N]⟩ : Shape), (⟨2, ![B, N]⟩ : Shape)] (⟨2, ![A + B, N]⟩ : Shape) 0)
    (s : Mat A N) (d : Mat B N) :
    concatenate (⟨2, ![A + B, N]⟩ : Shape) 0 [⟨(⟨2, ![A, N]⟩ : Shape), s⟩, ⟨(⟨2, ![B, N]⟩ : Shape), d⟩] h = vcat s d := by
  funext i
  have hi0 : (i 0).val < A + B := (i 0).isLt
  unfold vcat
  by_cases hlt : (i 0).val < A
  -- a row above A lies in the first piece, at the same coordinates
  · rw [dif_pos hlt]
    refine concatenate_pair_apply_left (0 : Fin 2) s d h i rfl (ix2 ⟨(i 0).val, hlt⟩ (i 1)) ?_
    intro b
    match b with
    | ⟨0, _⟩ => rfl
    | ⟨1, _⟩ => rfl
  -- a row at or past A lies in the second piece, A rows up
  · rw [dif_neg hlt]
    refine concatenate_pair_apply_right (0 : Fin 2) s d h i rfl rfl (ix2 ⟨(i 0).val - A, by omega⟩ (i 1)) ?_ ?_
    · intro b hb
      match b, hb with
      | ⟨0, _⟩, hb => exact absurd rfl hb
      | ⟨1, _⟩, _ => rfl
    · show (i 0).val - A + A = (i 0).val
      omega

/-! ## A bias row and a bias column read at an entry -/

/-- A row `[1, N]` broadcast to `[M, N]` reads the row's entry `q` at `(p, q)`. -/
theorem rowBias_apply {α : Type} (M N : Nat) (hb : (⟨2, ![1, N]⟩ : Shape).Broadcasts ⟨2, ![M, N]⟩)
    (br : (⟨2, ![1, N]⟩ : Shape).Idx → α) (p : Fin M) (q : Fin N) :
    broadcastTo ⟨2, ![M, N]⟩ br hb (ix2 p q) = br (ix2 (0 : Fin 1) q) := by
  have hq := q.isLt
  refine broadcastTo_apply br hb (ix2 p q) (ix2 (0 : Fin 1) q) ?_
  intro a
  match a with
  | ⟨0, _⟩ => exact (if_pos rfl).symm
  | ⟨1, _⟩ =>
    show q.val = if N = 1 then 0 else q.val
    split
    · omega
    · rfl

/-- A column `[M, 1]` broadcast to `[M, N]` reads the column's entry `p` at `(p, q)`. -/
theorem colBias_apply {α : Type} (M N : Nat) (hb : (⟨2, ![M, 1]⟩ : Shape).Broadcasts ⟨2, ![M, N]⟩)
    (bc : (⟨2, ![M, 1]⟩ : Shape).Idx → α) (p : Fin M) (q : Fin N) :
    broadcastTo ⟨2, ![M, N]⟩ bc hb (ix2 p q) = bc (ix2 p (0 : Fin 1)) := by
  have hp := p.isLt
  refine broadcastTo_apply bc hb (ix2 p q) (ix2 p (0 : Fin 1)) ?_
  intro a
  match a with
  | ⟨0, _⟩ =>
    show p.val = if M = 1 then 0 else p.val
    split
    · omega
    · rfl
  | ⟨1, _⟩ => exact (if_pos rfl).symm

/-! ## The dense layer in the kernel's two spellings, the bias a row -/

/-- `matmul(x, w, 0) + broadcast(row)` over the plain contraction is `lin x w (rowOf row)`. -/
theorem kernLinRow_eq (M K N : Nat) {φ₁ φ₂ : FTy} (prec : Option ContractPrecision)
    (hb : (⟨2, ![1, N]⟩ : Shape).Broadcasts ⟨2, ![M, N]⟩)
    (x : FVec Ideal (⟨2, ![M, K]⟩ : Shape) φ₁) (w : FVec Ideal (⟨2, ![K, N]⟩ : Shape) φ₂) (br : FVec Ideal (⟨2, ![1, N]⟩ : Shape) .f32) :
    addf (matmul (DotDims.plain M K N) prec x w (constant (F := Ideal) (⟨2, ![M, N]⟩ : Shape) .f32 0x00000000#32))
        (broadcastTo ⟨2, ![M, N]⟩ br hb)
      = lin x w (rowOf br) := by
  funext i
  obtain ⟨p, q, rfl⟩ : ∃ (p : Fin M) (q : Fin N), i = ix2 p q := ⟨i 0, i 1, eq_ix2 i⟩
  refine (addf_apply _ _ _).trans ?_
  rw [matmul_plain_zero_apply, rowBias_apply, lin_apply]
  rfl

/-- `matmul(xᵀ, w, 0) + broadcast(row)`, both operands contracted on their first axis, is `lin (tr xᵀ) w (rowOf row)`. -/
theorem kernLinT_eq (M K N : Nat) {φ₁ φ₂ : FTy} (prec : Option ContractPrecision)
    (hb : (⟨2, ![1, N]⟩ : Shape).Broadcasts ⟨2, ![M, N]⟩)
    (xt : FVec Ideal (⟨2, ![K, M]⟩ : Shape) φ₁) (w : FVec Ideal (⟨2, ![K, N]⟩ : Shape) φ₂) (br : FVec Ideal (⟨2, ![1, N]⟩ : Shape) .f32) :
    addf (matmul (LibContractT.lhsT M K N) prec xt w (constant (F := Ideal) (⟨2, ![M, N]⟩ : Shape) .f32 0x00000000#32))
        (broadcastTo ⟨2, ![M, N]⟩ br hb)
      = lin (tr xt) w (rowOf br) := by
  funext i
  obtain ⟨p, q, rfl⟩ : ∃ (p : Fin M) (q : Fin N), i = ix2 p q := ⟨i 0, i 1, eq_ix2 i⟩
  refine (addf_apply _ _ _).trans ?_
  rw [LibContractT.matmul_lhsT_zero_apply, rowBias_apply, lin_apply]
  rfl

/-! ## Joined weights: the layer of the join is the join of the layers -/

/-- `x · [w | w'] + [b | b']` is `[x · w + b | x · w' + b']`. -/
theorem lin_cat {M K A B : Nat} (x : Mat M K) (w : Mat K A) (w' : Mat K B) (b : Mat 1 A) (b' : Mat 1 B) :
    lin x (cat w w') (rowOf (cat b b')) = cat (lin x w (rowOf b)) (lin x w' (rowOf b')) := by
  funext i
  obtain ⟨p, q, rfl⟩ : ∃ (p : Fin M) (q : Fin (A + B)), i = ix2 p q := ⟨i 0, i 1, eq_ix2 i⟩
  by_cases h : q.val < A
  · rw [cat_left _ _ p q h, lin_apply, lin_apply]
    congr 1
    · exact Finset.sum_congr rfl fun k _ => by rw [cat_left w w' k q h]
    · exact cat_left b b' 0 q h
  · rw [cat_right _ _ p q h, lin_apply, lin_apply]
    congr 1
    · exact Finset.sum_congr rfl fun k _ => by rw [cat_right w w' k q h]
    · exact cat_right b b' 0 q h

/-- `relu` of a join is the join of the `relu`s. -/
theorem reluM_cat {M A B : Nat} (s : Mat M A) (d : Mat M B) : reluM (cat s d) = cat (reluM s) (reluM d) := by
  funext i
  obtain ⟨p, q, rfl⟩ : ∃ (p : Fin M) (q : Fin (A + B)), i = ix2 p q := ⟨i 0, i 1, eq_ix2 i⟩
  show relu (cat s d (ix2 p q)) = cat (reluM s) (reluM d) (ix2 p q)
  by_cases h : q.val < A
  · rw [cat_left _ _ p q h, cat_left _ _ p q h]; rfl
  · rw [cat_right _ _ p q h, cat_right _ _ p q h]; rfl

/-! ## Two heads as one product with a block-diagonal array -/

/-- Against a joined row `[a | c]`, a column of `[[u, 0], [0, v]]` that is one of `u`'s sums `a` against `u`'s column. -/
theorem sum_bdiag_left {M A B P Q : Nat} (u : Mat A P) (v : Mat B Q) (a : Mat M A) (c : Mat M B) (r : Fin M)
    (j : Fin (P + Q)) (h : j.val < P) :
    ∑ k : Fin (A + B), bdiag u v (ix2 k j) * cat a c (ix2 r k) = ∑ k : Fin A, a (ix2 r k) * u (ix2 k ⟨j.val, h⟩) := by
  rw [Fin.sum_univ_add]
  have e1 : ∀ k : Fin A, bdiag u v (ix2 (Fin.castAdd B k) j) * cat a c (ix2 r (Fin.castAdd B k)) = a (ix2 r k) * u (ix2 k ⟨j.val, h⟩) := by
    intro k
    have hk : (Fin.castAdd B k).val < A := k.isLt
    rw [cat_left a c r _ hk]
    unfold bdiag
    rw [vcat_left _ _ _ j hk, cat_left u _ _ j h]
    exact mul_comm _ _
  have e2 : ∀ k : Fin B, bdiag u v (ix2 (Fin.natAdd A k) j) * cat a c (ix2 r (Fin.natAdd A k)) = 0 := by
    intro k
    have hk : ¬ (Fin.natAdd A k).val < A := by rw [Fin.coe_natAdd]; omega
    unfold bdiag
    rw [vcat_right _ _ _ j hk, cat_left _ v _ j h]
    exact zero_mul _
  rw [Finset.sum_congr rfl (fun k _ => e1 k), Finset.sum_congr rfl (fun k _ => e2 k), Finset.sum_const_zero, add_zero]

/-- And a column that is one of `v`'s sums `c` against `v`'s column. -/
theorem sum_bdiag_right {M A B P Q : Nat} (u : Mat A P) (v : Mat B Q) (a : Mat M A) (c : Mat M B) (r : Fin M)
    (j : Fin (P + Q)) (h : ¬ j.val < P) :
    ∑ k : Fin (A + B), bdiag u v (ix2 k j) * cat a c (ix2 r k)
      = ∑ k : Fin B, c (ix2 r k) * v (ix2 k ⟨j.val - P, by have := j.isLt; omega⟩) := by
  rw [Fin.sum_univ_add]
  have e1 : ∀ k : Fin A, bdiag u v (ix2 (Fin.castAdd B k) j) * cat a c (ix2 r (Fin.castAdd B k)) = 0 := by
    intro k
    have hk : (Fin.castAdd B k).val < A := k.isLt
    unfold bdiag
    rw [vcat_left _ _ _ j hk, cat_right u _ _ j h]
    exact zero_mul _
  have e2 : ∀ k : Fin B, bdiag u v (ix2 (Fin.natAdd A k) j) * cat a c (ix2 r (Fin.natAdd A k))
      = c (ix2 r k) * v (ix2 k ⟨j.val - P, by have := j.isLt; omega⟩) := by
    intro k
    have hk : ¬ (Fin.natAdd A k).val < A := by rw [Fin.coe_natAdd]; omega
    have hkk : (⟨(Fin.natAdd A k).val - A, by have := (Fin.natAdd A k).isLt; omega⟩ : Fin B) = k :=
      Fin.ext (by show A + k.val - A = k.val; omega)
    rw [cat_right a c r _ hk]
    unfold bdiag
    rw [vcat_right _ _ _ j hk, cat_right _ v _ j h, hkk]
    exact mul_comm _ _
  rw [Finset.sum_congr rfl (fun k _ => e1 k), Finset.sum_congr rfl (fun k _ => e2 k), Finset.sum_const_zero, zero_add]

/-! ## The host's layout operations around such a kernel -/

/-- The row of a vector laid out as `[1, N]` is the vector. -/
theorem rowOf_bcast {N : Nat} (h₁ : (⟨1, ![N]⟩ : Shape).BroadcastsInDim ⟨2, ![1, N]⟩ ![1]) (b : Row N) :
    rowOf (broadcastInDim ⟨2, ![1, N]⟩ ![1] h₁ b) = b := by
  funext i
  obtain ⟨q, rfl⟩ : ∃ q : Fin N, i = ix1 q := ⟨i 0, eq_ix1 i⟩
  have hq := q.isLt
  show broadcastInDim ⟨2, ![1, N]⟩ ![1] h₁ b (ix2 (0 : Fin 1) q) = b (ix1 q)
  refine broadcastInDim_apply _ h₁ b _ (ix1 q) ?_
  intro a
  match a with
  | ⟨0, _⟩ =>
    show q.val = if N = 1 then 0 else q.val
    split
    · omega
    · rfl

/-- The transpose of the host's transpose is the array. -/
theorem tr_transpose {A B : Nat} (h : (⟨2, ![A, B]⟩ : Shape).Transposes [1, 0] ⟨2, ![B, A]⟩) (x : Mat A B) :
    tr (transpose ⟨2, ![B, A]⟩ [1, 0] x h) = x := by
  funext i
  obtain ⟨p, q, rfl⟩ : ∃ (p : Fin A) (q : Fin B), i = ix2 p q := ⟨i 0, i 1, eq_ix2 i⟩
  exact transpose_ix2_apply x h q p

/-- The host's transpose of `x` is `y` when `x[p, q] = y[q, p]` throughout. -/
theorem transpose_eq_of {A B : Nat} (h : (⟨2, ![A, B]⟩ : Shape).Transposes [1, 0] ⟨2, ![B, A]⟩) (x : Mat A B) (y : Mat B A)
    (hxy : ∀ (p : Fin A) (q : Fin B), x (ix2 p q) = y (ix2 q p)) : transpose ⟨2, ![B, A]⟩ [1, 0] x h = y := by
  funext i
  obtain ⟨q, p, rfl⟩ : ∃ (q : Fin B) (p : Fin A), i = ix2 q p := ⟨i 0, i 1, eq_ix2 i⟩
  exact (transpose_ix2_apply x h q p).trans (hxy p q)

/-- A row `[1, n]` re-laid as a column `[n, 1]` is `y` when `x[0, b] = y[b, 0]` throughout. -/
theorem rowToCol_eq_of {n : Nat} (h : (⟨2, ![1, n]⟩ : Shape).ShapeCasts ⟨2, ![n, 1]⟩) (x : Mat 1 n) (y : Mat n 1)
    (hxy : ∀ b : Fin n, x (ix2 (0 : Fin 1) b) = y (ix2 b (0 : Fin 1))) : shapeCast ⟨2, ![n, 1]⟩ x h = y := by
  funext i
  obtain ⟨b, z, rfl⟩ : ∃ (b : Fin n) (z : Fin 1), i = ix2 b z := ⟨i 0, i 1, eq_ix2 i⟩
  obtain rfl : z = 0 := Subsingleton.elim _ _
  refine (shapeCast_apply x h (ix2 b (0 : Fin 1)) (ix2 (0 : Fin 1) b) ?_).trans (hxy b)
  rw [Shape.rowMajor_val_two, Shape.rowMajor_val_two]
  show 0 * n + b.val = b.val * 1 + 0
  omega

end Cert.LibDense

end
-- ==== Proof.KernelNet.lean ====
import proofs.«170719_g49220325212179_cont_8to1c4_445_33_alg».proof.Proof.Gen.KernelIdeal.Skeleton
import proofs.«170719_g49220325212179_cont_8to1c4_445_33_alg».proof.Proof.LibDenseT
import proofs.«170719_g49220325212179_cont_8to1c4_445_33_alg».proof.Proof.Spec

/-!
# What the kernel's body computes

The body holds the batch transposed, `xᵀ : [36, 16384]`, and each bias as a row `[1, N]`. Its first value is the joined
hidden layer of the two heads before its `relu`: with `e` the encoder's rows, `[e · Wa1 + ba1 | e · Wc1 + bc1]`, computed as
ONE dense layer with the weights and the biases joined along the columns. Its second value, `[10, 16384]`, is the transposed
output of both heads: row `j < 9` is logit `j` of every state and row `9` the state value, computed as ONE product of the
block-diagonal array `[[Wa2, 0], [0, Wc2]]` with the joined hidden layer, plus the joined bias (itself a product with the
`1 × 1` array of one). A zero block contributes zero terms to a sum, so each row is its own head.
-/

noncomputable section

namespace Cert.KernelNet

open Cert.KernelIdeal Cert.KernelIdeal.Gen Idealize.ShloMosaic Idealize.ShloMosaic.ValueIdx Cert.LibDense Cert.Spec

/-! ## The printed contraction records -/

theorem dotA : dot_S36x16384_S36x128_S16384x128_0_0_1_1_n_n = LibContractT.lhsT 16384 36 128 := rfl
theorem dotB : dot_S16384x128_S128x64_S16384x64_1_0_0_1_n_n = DotDims.plain 16384 128 64 := rfl
theorem dotC : dot_S16384x64_S64x128_S16384x128_1_0_0_1_n_n = DotDims.plain 16384 64 128 := rfl
theorem dotD : dot_S128x10_S16384x128_S10x16384_0_1_1_0_n_n = LibContractT.bothT 10 128 16384 := rfl
theorem dotE : dot_S1x10_S1x1_S10x1_0_0_1_1_n_n = LibContractT.lhsT 10 1 1 := rfl

/-- On the extended reals a change of float format is the identity. -/
theorem truncf_id {s : Shape} {φ ψ : FTy} (v : FVec Ideal s φ) (h : ψ.bits < φ.bits) : truncf ψ v h = v := rfl

/-- The bf16 zero splat is the array of zeros. -/
theorem zero_splat (A B : Nat) :
    broadcast (⟨2, ![A, B]⟩ : Shape) (Scalar.ofBits (F := Ideal) .bf16 0x0000#16) = zeros A B := by
  funext i
  exact Ideal.ofBits_zero_bf16

/-! ## The joined hidden layer -/

/-- The encoder's rows as the kernel's operands give them. -/
abbrev encK (xt : Vec Ideal S36x16384 .f32) (w1 : Vec Ideal S36x128 .f32) (b1r : Vec Ideal S1x128 .f32)
    (w2 : Vec Ideal S128x64 .f32) (b2r : Vec Ideal S1x64 .f32) : Mat 16384 64 :=
  enc (tr xt) w1 (rowOf b1r) w2 (rowOf b2r)

/-- The body's first value is the two heads' hidden layers before `relu`, side by side. -/
theorem pay4_eq (xt : Vec Ideal S36x16384 .f32) (w1 : Vec Ideal S36x128 .f32) (b1r : Vec Ideal S1x128 .f32)
    (w2 : Vec Ideal S128x64 .f32) (b2r : Vec Ideal S1x64 .f32) (wa1 wc1 : Vec Ideal S64x64 .f32) (ba1r bc1r : Vec Ideal S1x64 .f32) :
    k0_pay4 xt w1 b1r w2 b2r wa1 wc1 ba1r bc1r
      = cat (lin (encK xt w1 b1r w2 b2r) wa1 (rowOf ba1r)) (lin (encK xt w1 b1r w2 b2r) wc1 (rowOf bc1r)) := by
  unfold k0_pay4
  dsimp only
  simp only [truncf_id, shapeCast_self]
  rw [dotA, dotB, dotC, shapeCast_self ba1r, shapeCast_self bc1r, concat_eq 64 64 64 _ wa1 wc1,
    concat_eq 1 64 64 _ ba1r bc1r]
  rw [kernLinRow_eq, kernRelu_eq, kernLinRow_eq, kernRelu_eq, kernLinT_eq, lin_cat]
  rfl

/-! ## The transposed output of both heads -/

/-- Row `j`, column `b` of the body's second value: column `j` of `[[Wa2, 0], [0, Wc2]]` summed against row `b` of the
    `relu` of the joined hidden layer, plus entry `j` of the joined bias. -/
theorem pay1_apply (v35 : FVec Ideal S16384x128 .f32) (wa2 : Vec Ideal S64x9 .f32) (wc2 : Vec Ideal S64x1 .f32)
    (ba2r : Vec Ideal S1x9 .f32) (bc2r : Vec Ideal S1x1 .f32) (j : Fin 10) (b : Fin 16384) :
    k0_pay1 v35 (Scalar.ofBits (F := Ideal) .f32 0x00000000#32) wa2 wc2 ba2r bc2r (ix2 j b)
      = (∑ k : Fin (64 + 64), bdiag wa2 wc2 (ix2 k j) * reluM v35 (ix2 b k)) + cat ba2r bc2r (ix2 (0 : Fin 1) j) := by
  unfold k0_pay1
  simp only [truncf_id]
  rw [dotD, dotE, kernRelu_eq, shapeCast_self ba2r, shapeCast_self bc2r]
  refine (addf_apply _ _ _).trans ?_
  rw [LibContractT.matmul_bothT_zero_apply, colBias_apply, LibContractT.matmul_lhsT_zero_apply]
  rw [zero_splat 64 1, zero_splat 64 9, concat_eq 64 9 1 _ wa2 (zeros 64 1), concat_eq 64 9 1 _ (zeros 64 9) wc2,
    vconcat_eq 64 64 10 _ (cat wa2 (zeros 64 1)) (cat (zeros 64 9) wc2), concat_eq 1 9 1 _ ba2r bc2r]
  rw [Fin.sum_univ_one]
  congr 1
  show cat ba2r bc2r (ix2 (0 : Fin 1) j) * Ideal.ofBits .f32 0x3F800000#32 = _
  rw [Ideal.ofBits_one_f32, mul_one]

/-! ## The two stored values -/

/-- Row `j < 9`, column `b` of the transposed output is logit `j` of state `b`: the actor head on the encoder's rows. The
    critic's block of the block-diagonal array is zero in these columns. -/
theorem pay2_apply (xt : Vec Ideal S36x16384 .f32) (w1 : Vec Ideal S36x128 .f32) (b1r : Vec Ideal S1x128 .f32)
    (w2 : Vec Ideal S128x64 .f32) (b2r : Vec Ideal S1x64 .f32) (wa1 wc1 : Vec Ideal S64x64 .f32) (ba1r bc1r : Vec Ideal S1x64 .f32)
    (wa2 : Vec Ideal S64x9 .f32) (wc2 : Vec Ideal S64x1 .f32) (ba2r : Vec Ideal S1x9 .f32) (bc2r : Vec Ideal S1x1 .f32)
    (j : Fin 9) (b : Fin 16384) :
    k0_pay2 (k0_pay4 xt w1 b1r w2 b2r wa1 wc1 ba1r bc1r) (Scalar.ofBits (F := Ideal) .f32 0x00000000#32) wa2 wc2 ba2r bc2r (ix2 j b)
      = head (encK xt w1 b1r w2 b2r) wa1 (rowOf ba1r) wa2 (rowOf ba2r) (ix2 b j) := by
  have hj : j.val < 9 := j.isLt
  unfold k0_pay2
  refine (extractStridedSlice_apply _ _ _ (ix2 j b) (ix2 (⟨j.val, by omega⟩ : Fin 10) b) ?_).trans ?_
  · intro a
    match a with
    | ⟨0, _⟩ => show j.val = 0 + j.val; omega
    | ⟨1, _⟩ => show b.val = 0 + b.val; omega
  rw [pay1_apply, pay4_eq, reluM_cat, sum_bdiag_left _ _ _ _ b _ hj, cat_left ba2r bc2r 0 _ hj]
  rfl

/-- Row `9`, column `b` of the transposed output is the value of state `b`: the critic head on the encoder's rows. -/
theorem pay3_apply (xt : Vec Ideal S36x16384 .f32) (w1 : Vec Ideal S36x128 .f32) (b1r : Vec Ideal S1x128 .f32)
    (w2 : Vec Ideal S128x64 .f32) (b2r : Vec Ideal S1x64 .f32) (wa1 wc1 : Vec Ideal S64x64 .f32) (ba1r bc1r : Vec Ideal S1x64 .f32)
    (wa2 : Vec Ideal S64x9 .f32) (wc2 : Vec Ideal S64x1 .f32) (ba2r : Vec Ideal S1x9 .f32) (bc2r : Vec Ideal S1x1 .f32)
    (b : Fin 16384) :
    k0_pay3 (k0_pay4 xt w1 b1r w2 b2r wa1 wc1 ba1r bc1r) (Scalar.ofBits (F := Ideal) .f32 0x00000000#32) wa2 wc2 ba2r bc2r (ix2 (0 : Fin 1) b)
      = head (encK xt w1 b1r w2 b2r) wc1 (rowOf bc1r) wc2 (rowOf bc2r) (ix2 b (0 : Fin 1)) := by
  have h9 : ¬ (9 : Nat) < 9 := by omega
  unfold k0_pay3
  refine (extractStridedSlice_apply _ _ _ (ix2 (0 : Fin 1) b) (ix2 (⟨9, by omega⟩ : Fin 10) b) ?_).trans ?_
  · intro a
    match a with
    | ⟨0, _⟩ => rfl
    | ⟨1, _⟩ => show b.val = 0 + b.val; omega
  rw [pay1_apply, pay4_eq, reluM_cat, sum_bdiag_right _ _ _ _ b _ h9, cat_right ba2r bc2r 0 _ h9]
  rfl

end Cert.KernelNet

end
-- ==== Proof.KernelValue.lean ====
import proofs.«170719_g49220325212179_cont_8to1c4_445_33_alg».proof.Proof.Gen.KernelIdeal.Frame
import proofs.«170719_g49220325212179_cont_8to1c4_445_33_alg».proof.Proof.KernelNet
import Idealize.ShloMosaic.Lib.Pipeline.Value
import Idealize.ShloMosaic.Lib.StableHlo.Run

/-!
# The kernel program's two results

The program transposes the batch and lays each bias out as a row before its one kernel call, which has no grid: every
window is its whole array, fetched once and, for the two outputs, written back once. So after the call the first output
array `[9, 16384]` and the second `[1, 16384]` hold the body's two stored values of the whole operand arrays. The program
then transposes the first to `[16384, 9]` and re-lays the second as a column `[16384, 1]`: the logits and the state values.
-/

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Idealize.ShloMosaic.StableHlo Cert.LibDense Cert.Spec Cert.KernelNet
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The operand arrays as the kernel call finds them

Six of the call's operands are a bias vector laid out as a row by the program's first lines, and one is the batch
transposed. -/

theorem V_v0 (c : Dev nD) : (V m c main_v0 : S1x128.Idx → EReal)
    = broadcastInDim S1x128 ![1] bcast_S128_S1x128_1 (m ((c : Thread nD τ).loc main_arg2)) := by
  show StableHlo.after hostOps0 (fun b => m (c, b)) (Proc.devRef .tc main_v0) = _
  after_results

theorem V_v1 (c : Dev nD) : (V m c main_v1 : S1x64.Idx → EReal)
    = broadcastInDim S1x64 ![1] bcast_S64_S1x64_1 (m ((c : Thread nD τ).loc main_arg4)) := by
  show StableHlo.after hostOps0 (fun b => m (c, b)) (Proc.devRef .tc main_v1) = _
  after_results

theorem V_v2 (c : Dev nD) : (V m c main_v2 : S1x64.Idx → EReal)
    = broadcastInDim S1x64 ![1] bcast_S64_S1x64_1 (m ((c : Thread nD τ).loc main_arg6)) := by
  show StableHlo.after hostOps0 (fun b => m (c, b)) (Proc.devRef .tc main_v2) = _
  after_results

theorem V_v3 (c : Dev nD) : (V m c main_v3 : S1x9.Idx → EReal)
    = broadcastInDim S1x9 ![1] bcast_S9_S1x9_1 (m ((c : Thread nD τ).loc main_arg8)) := by
  show StableHlo.after hostOps0 (fun b => m (c, b)) (Proc.devRef .tc main_v3) = _
  after_results

theorem V_v4 (c : Dev nD) : (V m c main_v4 : S1x64.Idx → EReal)
    = broadcastInDim S1x64 ![1] bcast_S64_S1x64_1 (m ((c : Thread nD τ).loc main_arg10)) := by
  show StableHlo.after hostOps0 (fun b => m (c, b)) (Proc.devRef .tc main_v4) = _
  after_results

theorem V_v5 (c : Dev nD) : (V m c main_v5 : S1x1.Idx → EReal)
    = broadcastInDim S1x1 ![1] bcast_S1_S1x1_1 (m ((c : Thread nD τ).loc main_arg12)) := by
  show StableHlo.after hostOps0 (fun b => m (c, b)) (Proc.devRef .tc main_v5) = _
  after_results

theorem V_v6 (c : Dev nD) : (V m c main_v6 : S36x16384.Idx → EReal)
    = transpose S36x16384 [1, 0] (m ((c : Thread nD τ).loc main_arg0)) transposes_S16384x36_S36x16384_1_0 := by
  show StableHlo.after hostOps0 (fun b => m (c, b)) (Proc.devRef .tc main_v6) = _
  after_results

/-! ## A window of a call with no grid is its whole array -/

/-- The body's two stored values of the whole operand arrays. -/
abbrev logitsT (c : Dev nD) : S9x16384.Idx → EReal :=
  k0_pay2 (k0_pay4 (V m c main_v6) (V m c main_arg1) (V m c main_v0) (V m c main_arg3) (V m c main_v1) (V m c main_arg5)
      (V m c main_arg9) (V m c main_v2) (V m c main_v4))
    (Scalar.ofBits (F := Ideal) .f32 0x00000000#32) (V m c main_arg7) (V m c main_arg11) (V m c main_v3) (V m c main_v5)

abbrev valueT (c : Dev nD) : S1x16384.Idx → EReal :=
  k0_pay3 (k0_pay4 (V m c main_v6) (V m c main_arg1) (V m c main_v0) (V m c main_arg3) (V m c main_v1) (V m c main_arg5)
      (V m c main_arg9) (V m c main_v2) (V m c main_v4))
    (Scalar.ofBits (F := Ideal) .f32 0x00000000#32) (V m c main_arg7) (V m c main_arg11) (V m c main_v3) (V m c main_v5)

/-- An index of a block at offset zero, `0 · size + 1 · j` on each axis, is `j`. -/
local macro "block_at_zero" j:ident n0:num n1:num : tactic =>
  `(tactic| (refine congrArg _ (funext fun a => Fin.ext ?_)
             match a with
             | ⟨0, _⟩ => (show 0 * $n0 + 1 * ($j 0).val = ($j 0).val; omega)
             | ⟨1, _⟩ => (show 0 * $n1 + 1 * ($j 1).val = ($j 1).val; omega)))

theorem iblk_0 (c : Dev nD) (t : Fin cfg0.N) : (iblk m c 0 t : S36x16384.Idx → EReal) = V m c main_v6 := by
  funext j
  show V m c main_v6 (((cfg0.win 0).blk t).view.emb j) = V m c main_v6 j
  block_at_zero j 36 16384
theorem iblk_1 (c : Dev nD) (t : Fin cfg0.N) : (iblk m c 1 t : S36x128.Idx → EReal) = V m c main_arg1 := by
  funext j
  show V m c main_arg1 (((cfg0.win 1).blk t).view.emb j) = V m c main_arg1 j
  block_at_zero j 36 128
theorem iblk_2 (c : Dev nD) (t : Fin cfg0.N) : (iblk m c 2 t : S1x128.Idx → EReal) = V m c main_v0 := by
  funext j
  show V m c main_v0 (((cfg0.win 2).blk t).view.emb j) = V m c main_v0 j
  block_at_zero j 1 128
theorem iblk_3 (c : Dev nD) (t : Fin cfg0.N) : (iblk m c 3 t : S128x64.Idx → EReal) = V m c main_arg3 := by
  funext j
  show V m c main_arg3 (((cfg0.win 3).blk t).view.emb j) = V m c main_arg3 j
  block_at_zero j 128 64
theorem iblk_4 (c : Dev nD) (t : Fin cfg0.N) : (iblk m c 4 t : S1x64.Idx → EReal) = V m c main_v1 := by
  funext j
  show V m c main_v1 (((cfg0.win 4).blk t).view.emb j) = V m c main_v1 j
  block_at_zero j 1 64
theorem iblk_5 (c : Dev nD) (t : Fin cfg0.N) : (iblk m c 5 t : S64x64.Idx → EReal) = V m c main_arg5 := by
  funext j
  show V m c main_arg5 (((cfg0.win 5).blk t).view.emb j) = V m c main_arg5 j
  block_at_zero j 64 64
theorem iblk_6 (c : Dev nD) (t : Fin cfg0.N) : (iblk m c 6 t : S1x64.Idx → EReal) = V m c main_v2 := by
  funext j
  show V m c main_v2 (((cfg0.win 6).blk t).view.emb j) = V m c main_v2 j
  block_at_zero j 1 64
theorem iblk_7 (c : Dev nD) (t : Fin cfg0.N) : (iblk m c 7 t : S64x9.Idx → EReal) = V m c main_arg7 := by
  funext j
  show V m c main_arg7 (((cfg0.win 7).blk t).view.emb j) = V m c main_arg7 j
  block_at_zero j 64 9
theorem iblk_8 (c : Dev nD) (t : Fin cfg0.N) : (iblk m c 8 t : S1x9.Idx → EReal) = V m c main_v3 := by
  funext j
  show V m c main_v3 (((cfg0.win 8).blk t).view.emb j) = V m c main_v3 j
  block_at_zero j 1 9
theorem iblk_9 (c : Dev nD) (t : Fin cfg0.N) : (iblk m c 9 t : S64x64.Idx → EReal) = V m c main_arg9 := by
  funext j
  show V m c main_arg9 (((cfg0.win 9).blk t).view.emb j) = V m c main_arg9 j
  block_at_zero j 64 64
theorem iblk_10 (c : Dev nD) (t : Fin cfg0.N) : (iblk m c 10 t : S1x64.Idx → EReal) = V m c main_v4 := by
  funext j
  show V m c main_v4 (((cfg0.win 10).blk t).view.emb j) = V m c main_v4 j
  block_at_zero j 1 64
theorem iblk_11 (c : Dev nD) (t : Fin cfg0.N) : (iblk m c 11 t : S64x1.Idx → EReal) = V m c main_arg11 := by
  funext j
  show V m c main_arg11 (((cfg0.win 11).blk t).view.emb j) = V m c main_arg11 j
  block_at_zero j 64 1
theorem iblk_12 (c : Dev nD) (t : Fin cfg0.N) : (iblk m c 12 t : S1x1.Idx → EReal) = V m c main_v5 := by
  funext j
  show V m c main_v5 (((cfg0.win 12).blk t).view.emb j) = V m c main_v5 j
  block_at_zero j 1 1

/-- Reading an array through the first output's one block gives the array. -/
theorem read_blk13 (t : Fin cfg0.N) (G : S9x16384.Idx → EReal) :
    ((cfg0.win 13).blk t).view.read (Elt Ideal) G = G := by
  funext j
  show G (((cfg0.win 13).blk t).view.emb j) = G j
  block_at_zero j 9 16384

/-- Reading an array through the second output's one block gives the array. -/
theorem read_blk14 (t : Fin cfg0.N) (G : S1x16384.Idx → EReal) :
    ((cfg0.win 14).blk t).view.read (Elt Ideal) G = G := by
  funext j
  show G (((cfg0.win 14).blk t).view.emb j) = G j
  block_at_zero j 1 16384

/-! ## What the call writes back -/

/-- The one point writes back the body's first stored value of the whole operand arrays. -/
theorem flushed13_eq (c : Dev nD) (t : Fin cfg0.N) :
    (dats m 0 c).flushed 13 t = ((cfg0.win 13).blk t).view.read (Elt Ideal) (logitsT m c) := by
  rw [read_blk13]
  show (cfg0.win 13).cut (grid0.coords t) ((dats m 0 c).after 13 t) = _
  rw [after0_13]
  unfold out0_13
  rw [View.canon_unit_zero hz]
  simp only [View.ld_unit_zero (S := S36x16384) hz, View.ld_unit_zero (S := S36x128) hz, View.ld_unit_zero (S := S1x128) hz,
    View.ld_unit_zero (S := S128x64) hz, View.ld_unit_zero (S := S1x64) hz, View.ld_unit_zero (S := S64x64) hz,
    View.ld_unit_zero (S := S64x9) hz, View.ld_unit_zero (S := S64x1) hz, View.ld_unit_zero (S := S1x9) hz,
    View.ld_unit_zero (S := S1x1) hz]
  rw [iblk_0 m c t, iblk_1 m c t, iblk_2 m c t, iblk_3 m c t, iblk_4 m c t, iblk_5 m c t, iblk_6 m c t, iblk_7 m c t,
    iblk_8 m c t, iblk_9 m c t, iblk_10 m c t, iblk_11 m c t, iblk_12 m c t]
  rfl

/-- And the body's second stored value. -/
theorem flushed14_eq (c : Dev nD) (t : Fin cfg0.N) :
    (dats m 0 c).flushed 14 t = ((cfg0.win 14).blk t).view.read (Elt Ideal) (valueT m c) := by
  rw [read_blk14]
  show (cfg0.win 14).cut (grid0.coords t) ((dats m 0 c).after 14 t) = _
  rw [after0_14]
  unfold out0_14
  rw [View.canon_unit_zero hz]
  simp only [View.ld_unit_zero (S := S36x16384) hz, View.ld_unit_zero (S := S36x128) hz, View.ld_unit_zero (S := S1x128) hz,
    View.ld_unit_zero (S := S128x64) hz, View.ld_unit_zero (S := S1x64) hz, View.ld_unit_zero (S := S64x64) hz,
    View.ld_unit_zero (S := S64x9) hz, View.ld_unit_zero (S := S64x1) hz, View.ld_unit_zero (S := S1x9) hz,
    View.ld_unit_zero (S := S1x1) hz]
  rw [iblk_0 m c t, iblk_1 m c t, iblk_2 m c t, iblk_3 m c t, iblk_4 m c t, iblk_5 m c t, iblk_6 m c t, iblk_7 m c t,
    iblk_8 m c t, iblk_9 m c t, iblk_10 m c t, iblk_11 m c t, iblk_12 m c t]
  rfl

/-- The one block of the first output covers its array. -/
theorem cover13 (i : S9x16384.Idx) :
    ∃ t : Fin cfg0.N, (cfg0.win 13).flush t = true ∧ i ∈ ((cfg0.win 13).blk t).view.set := by
  refine ⟨t0_0, flush0_13 t0_0, ?_⟩
  show i ∈ ((View.whole main_v7_0).slice (win0_13.rect t0_0)).set
  rw [View.set_slice_whole, Rect.mem_set_unit]
  intro a
  have h0 : (i 0).val < 9 := (i 0).isLt
  have h1 : (i 1).val < 16384 := (i 1).isLt
  match a with
  | ⟨0, _⟩ => show 0 * 9 ≤ (i 0).val ∧ (i 0).val < 0 * 9 + 9; omega
  | ⟨1, _⟩ => show 0 * 16384 ≤ (i 1).val ∧ (i 1).val < 0 * 16384 + 16384; omega

/-- The one block of the second output covers its array. -/
theorem cover14 (i : S1x16384.Idx) :
    ∃ t : Fin cfg0.N, (cfg0.win 14).flush t = true ∧ i ∈ ((cfg0.win 14).blk t).view.set := by
  refine ⟨t0_0, flush0_14 t0_0, ?_⟩
  show i ∈ ((View.whole main_v7_1).slice (win0_14.rect t0_0)).set
  rw [View.set_slice_whole, Rect.mem_set_unit]
  intro a
  have h0 : (i 0).val < 1 := (i 0).isLt
  have h1 : (i 1).val < 16384 := (i 1).isLt
  match a with
  | ⟨0, _⟩ => show 0 * 1 ≤ (i 0).val ∧ (i 0).val < 0 * 1 + 1; omega
  | ⟨1, _⟩ => show 0 * 16384 ≤ (i 1).val ∧ (i 1).val < 0 * 16384 + 16384; omega

/-- After the call the first output array holds the body's first stored value. -/
theorem final13 (c : Dev nD) : (dats m 0 c).arrAt 13 cfg0.N = logitsT m c :=
  (dats m 0 c).arrAt_eq_of_cover 13 _ (fun t _ => flushed13_eq m c t) cover13

/-- And the second output array the second. -/
theorem final14 (c : Dev nD) : (dats m 0 c).arrAt 14 cfg0.N = valueT m c :=
  (dats m 0 c).arrAt_eq_of_cover 14 _ (fun t _ => flushed14_eq m c t) cover14

/-! ## The two lines after the call -/

theorem tail_v8 (c : Dev nD) :
    Pipeline.afterTail₀ cfgs (dats m) 0 (V0 m) [hostOps1] c main_v8
      = transpose S16384x9 [1, 0] (logitsT m c) transposes_S9x16384_S16384x9_1_0 := by
  unfold Pipeline.afterTail₀
  show StableHlo.after hostOps1 _ (Proc.devRef .tc main_v8) = _
  after_results
  exact congrArg (fun x => transpose S16384x9 [1, 0] x transposes_S9x16384_S16384x9_1_0)
    ((Pipeline.withArrays_arr spec0 launch0.win.arr_inj c _ _ 13).trans (final13 m c))

theorem tail_v9 (c : Dev nD) :
    Pipeline.afterTail₀ cfgs (dats m) 0 (V0 m) [hostOps1] c main_v9
      = shapeCast S16384x1 (valueT m c) shapeCasts_S1x16384_S16384x1 := by
  unfold Pipeline.afterTail₀
  show StableHlo.after hostOps1 _ (Proc.devRef .tc main_v9) = _
  after_results
  refine funext fun i => ?_
  exact congrFun (congrArg (fun x => shapeCast S16384x1 x shapeCasts_S1x16384_S16384x1)
    ((Pipeline.withArrays_arr spec0 launch0.win.arr_inj c _ _ 14).trans (final14 m c))) i

/-! ## The results are the network's -/

/-- The encoder's rows of the program's arguments. -/
abbrev encOf (c : Dev nD) : Mat 16384 64 :=
  enc (m ((c : Thread nD τ).loc main_arg0)) (m ((c : Thread nD τ).loc main_arg1)) (m ((c : Thread nD τ).loc main_arg2))
    (m ((c : Thread nD τ).loc main_arg3)) (m ((c : Thread nD τ).loc main_arg4))

/-- The actor head's logits of the program's arguments. -/
abbrev logitsOf (c : Dev nD) : Mat 16384 9 :=
  head (encOf m c) (m ((c : Thread nD τ).loc main_arg5)) (m ((c : Thread nD τ).loc main_arg6))
    (m ((c : Thread nD τ).loc main_arg7)) (m ((c : Thread nD τ).loc main_arg8))

/-- The critic head's values of the program's arguments. -/
abbrev valueOf (c : Dev nD) : Mat 16384 1 :=
  head (encOf m c) (m ((c : Thread nD τ).loc main_arg9)) (m ((c : Thread nD τ).loc main_arg10))
    (m ((c : Thread nD τ).loc main_arg11)) (m ((c : Thread nD τ).loc main_arg12))

/-- The encoder's rows from the operands the call finds: the batch transposed back, each bias row read as its vector. -/
theorem encK_eq (c : Dev nD) :
    encK (V m c main_v6) (V m c main_arg1) (V m c main_v0) (V m c main_arg3) (V m c main_v1) = encOf m c := by
  show enc (tr (V m c main_v6)) (V m c main_arg1) (rowOf (V m c main_v0)) (V m c main_arg3) (rowOf (V m c main_v1)) = _
  rw [V_v6, V_v0, V_v1, tr_transpose, rowOf_bcast, rowOf_bcast, V_main_arg1, V_main_arg3]

/-- The first result is the logits. -/
theorem logits_eq (c : Dev nD) :
    transpose S16384x9 [1, 0] (logitsT m c) transposes_S9x16384_S16384x9_1_0 = logitsOf m c := by
  refine transpose_eq_of _ _ _ fun j b => ?_
  refine (pay2_apply _ _ _ _ _ _ _ _ _ _ _ _ _ j b).trans ?_
  rw [encK_eq, V_v2, V_v3, rowOf_bcast, rowOf_bcast, V_main_arg5, V_main_arg7]

/-- The second result is the state values. -/
theorem value_eq (c : Dev nD) :
    shapeCast S16384x1 (valueT m c) shapeCasts_S1x16384_S16384x1 = valueOf m c := by
  refine rowToCol_eq_of _ _ _ fun b => ?_
  refine (pay3_apply _ _ _ _ _ _ _ _ _ _ _ _ _ b).trans ?_
  rw [encK_eq, V_v4, V_v5, rowOf_bcast, rowOf_bcast, V_main_arg9, V_main_arg11]

/-! ## The run -/

/-- Every weakly fair execution of the kernel program terminates with its two results at the logits and the state
    values of its arguments, the arguments unchanged. -/
theorem run : θ_run defs (onTc (τ := τ) (main (F := Ideal))) ⟨m, fun _ => 0, ρ⟩ fun r => ∀ c : Dev nD,
      r.2.mem ((c : Thread nD τ).loc main_v8) = logitsOf m c
      ∧ r.2.mem ((c : Thread nD τ).loc main_v9) = valueOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c =>
    ⟨((h c).2 main_v8 (Pipeline.mem_restRefs_of main_v8 (by decide) (by decide))).trans ((tail_v8 m c).trans (logits_eq m c)),
      ((h c).2 main_v9 (Pipeline.mem_restRefs_of main_v9 (by decide) (by decide))).trans ((tail_v9 m c).trans (value_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c),
      ((h c).1 11).trans (((dats m 0 c).arrAt_in 11 rfl _).trans ((A_eq m c 11).trans (V_main_arg11 m c))),
      ((h c).2 main_arg12 (Pipeline.mem_restRefs_of main_arg12 (by decide) (by decide))).trans (W_main_arg12 m (dats m) c)⟩)
    (run_main m ρ)

end Cert.KernelValue

end
-- ==== Proof.lean ====
/-
  The kernel and the reference compute the same network on the extended reals.

  A batch of 16384 states of 36 features goes through an encoder of two dense layers with relu (36 → 128 → 64); the
  encoded rows go through an actor head (64 → 64 with relu, then 64 → 9: the logits) and a critic head (64 → 64 with relu,
  then 64 → 1: the state value). The reference writes this as six `dot_general`s, each followed by its bias broadcast and
  sum, with `maximum` against zero for relu.

  The kernel holds the batch transposed and contracts it on its first axis, which is the same sum. It runs the two heads
  together: their first layers as one dense layer whose weights and biases are the two heads' joined along the columns,
  so that its result is the two hidden layers side by side; their second layers as one product of the block-diagonal
  array [[Wa2, 0], [0, Wc2]] with that joined hidden layer, computed transposed, so that row j < 9 of the result is logit
  j and row 9 the state value. In a sum over the joined 128 columns the terms against a zero block are zero (0 · x = 0
  for every extended real x), and what is left is the head's own sum over its 64 columns, the factors in the other
  order. The joined bias enters as a product with the 1 × 1 array of one, which is the bias. The program transposes the
  logits back and re-lays the values as a column. A change of float format is the identity on the extended reals. No
  step uses that the inputs are finite.
-/
import proofs.«170719_g49220325212179_cont_8to1c4_445_33_alg».proof.Defs
import proofs.«170719_g49220325212179_cont_8to1c4_445_33_alg».proof.Proof.Gen.Kernel
import proofs.«170719_g49220325212179_cont_8to1c4_445_33_alg».proof.Proof.Gen.Kernel.Skeleton
import proofs.«170719_g49220325212179_cont_8to1c4_445_33_alg».proof.Proof.Gen.Kernel.Launch
import proofs.«170719_g49220325212179_cont_8to1c4_445_33_alg».proof.Proof.Gen.Kernel.Points
import proofs.«170719_g49220325212179_cont_8to1c4_445_33_alg».proof.Proof.Gen.Kernel.Frame
import proofs.«170719_g49220325212179_cont_8to1c4_445_33_alg».proof.Proof.Gen.KernelIdeal
import proofs.«170719_g49220325212179_cont_8to1c4_445_33_alg».proof.Proof.Gen.KernelIdeal.Skeleton
import proofs.«170719_g49220325212179_cont_8to1c4_445_33_alg».proof.Proof.Gen.KernelIdeal.Launch
import proofs.«170719_g49220325212179_cont_8to1c4_445_33_alg».proof.Proof.Gen.KernelIdeal.Points
import proofs.«170719_g49220325212179_cont_8to1c4_445_33_alg».proof.Proof.Gen.KernelIdeal.Frame
import proofs.«170719_g49220325212179_cont_8to1c4_445_33_alg».proof.Proof.Gen.ReferenceIdeal
import proofs.«170719_g49220325212179_cont_8to1c4_445_33_alg».proof.Proof.Gen.ReferenceIdeal.Run
import proofs.«170719_g49220325212179_cont_8to1c4_445_33_alg».proof.Proof.Gen.Pre_finite_inputs
import proofs.«170719_g49220325212179_cont_8to1c4_445_33_alg».proof.Proof.RefIsSpec
import proofs.«170719_g49220325212179_cont_8to1c4_445_33_alg».proof.Proof.KernelValue
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the logits and the state values of the network at their (equal) arguments. -/
theorem algebraic : Cert.algebraic_KernelIdeal_ReferenceIdeal := by
  intro m ρ m' ρ' _ hagree
  refine ⟨fun c => Cert.KernelValue.logitsOf m c, fun c => Cert.KernelValue.valueOf m c, Cert.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, -, -, -, -⟩ := hagree c
    rw [Cert.RefIsSpec.ref_enc, Cert.RefIsSpec.ref_actor, e0, e1, e2, e3, e4, e5, e6, e7, e8]
  · obtain ⟨e0, e1, e2, e3, e4, -, -, -, -, e9, e10, e11, e12⟩ := hagree c
    rw [Cert.RefIsSpec.ref_enc, Cert.RefIsSpec.ref_critic, e0, e1, e2, e3, e4, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
